-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200 : Shape := ⟨2, ![4096, 200]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : FVec F S4096x200 .f32) (main_arg1 : IVec S4096x200 32) : IVec S_ 1 :=
  let main_v0 : FVec F S4096x200 .f32 := Host.absf main_arg0
  let main_cst : FVec F S_ .f32 := constant S_ .f32 0x7F800000#32
  let main_v1 : FVec F S4096x200 .f32 := broadcastInDim S4096x200 ![] bcast_S_S4096x200 main_cst
  let main_v2 : IVec S4096x200 1 := cmpf .olt main_v0 main_v1
  let main_c : IVec S_ 1 := constantI S_ 1 1#1
  let main_v3 : IVec S_ 1 := (fun x v => Host.reduce IntOp.andi x v reducesTo_S4096x200_S_d0_1 h_S_) main_v2 main_c
  main_v3
-- ==== Kernel.lean ====
abbrev S4096x200 : Shape := ⟨2, ![4096, 200]⟩
abbrev S1x1 : Shape := ⟨2, ![1, 1]⟩
abbrev S64x200 : Shape := ⟨2, ![64, 200]⟩
abbrev S64x200x1 : Shape := ⟨3, ![64, 200, 1]⟩
abbrev S64x1x200 : Shape := ⟨3, ![64, 1, 200]⟩
abbrev S64x200x200 : Shape := ⟨3, ![64, 200, 200]⟩
abbrev S64 : Shape := ⟨1, ![64]⟩
abbrev S1x64 : Shape := ⟨2, ![1, 64]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S4096x200, .f32⟩
  | .hbm, ⟨1, _⟩ => ⟨S4096x200, .i32⟩
  | .hbm, ⟨2, _⟩ => ⟨S1x1, .f32⟩
  | .hbm, ⟨3, _⟩ => ⟨S_, .f32⟩
  | .local _ .vmem, ⟨0, _⟩ => ⟨S64x200, .f32⟩
  | .local _ .vmem, ⟨1, _⟩ => ⟨S64x200, .f32⟩
  | .local _ .vmem, ⟨2, _⟩ => ⟨S64x200, .i32⟩
  | .local _ .vmem, ⟨3, _⟩ => ⟨S64x200, .i32⟩
  | .local _ .vmem, ⟨4, _⟩ => ⟨S1x1, .f32⟩
  | .local _ .vmem, ⟨5, _⟩ => ⟨S1x1, .f32⟩
  | _, _ => ⟨S4096x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v46 : BitVec 1 := Scalar.cmpi .eq arg0 c63_i32
  let v47 : BitVec 32 := Scalar.extui v46
  let c0_i32_18 : BitVec 32 := 0#32
  let v48 : BitVec 1 := Scalar.cmpi .ne v47 c0_i32_18
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x200_S64x200_0_0 : ∀ a, (![0, 0] : Fin 2 → Nat) a + S64x200.size a ≤ S64x200.size a
  h_S64x200 : 0 < S64x200.numel
  shapeCasts_S64x200_S64x200x1 : S64x200.ShapeCasts S64x200x1
  shapeCasts_S64x200_S64x1x200 : S64x200.ShapeCasts S64x1x200
  broadcasts_S64x200x1_S64x200x200 : S64x200x1.Broadcasts S64x200x200
  broadcasts_S64x1x200_S64x200x200 : S64x1x200.Broadcasts S64x200x200
  reduces_S64x200x200_S64x200 : S64x200x200.Reduces [2] S64x200
  reduces_S64x200_S64 : S64x200.Reduces [1] S64
  shapeCasts_S64_S1x64 : S64.ShapeCasts S1x64
  reduces_S1x64_S1 : S1x64.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x200.size a ≤ S4096x200.size a
  hwx0_0 : ∀ i : grid0.Coords, EltTy.bits .f32 = 32 ∨ (Rect.block (s := S4096x200) S64x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x200.size a ≤ S4096x200.size a
  hwx0_1 : ∀ i : grid0.Coords, EltTy.bits .i32 = 32 ∨ (Rect.block (s := S4096x200) S64x200.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S64x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x200 : Shape := ⟨2, ![4096, 200]⟩
abbrev S4096x200x1 : Shape := ⟨3, ![4096, 200, 1]⟩
abbrev S4096x1x200 : Shape := ⟨3, ![4096, 1, 200]⟩
abbrev S4096x200x200 : Shape := ⟨3, ![4096, 200, 200]⟩
abbrev S_ : Shape := ⟨0, ![]⟩
abbrev S4096 : Shape := ⟨1, ![4096]⟩

abbrev nBuf : Space → Nat
  | .hbm => 46
  | .vmem => 0
  | .smem => 0
  | _ => 0

abbrev bufTy : (tb : Table) → Fin (tcTables nBuf tb) → BufTy
  | .hbm, ⟨0, _⟩ => ⟨S4096x200, .f32⟩
  | .hbm, ⟨1, _⟩ => ⟨S4096x200, .i32⟩
  | .hbm, ⟨2, _⟩ => ⟨S4096x200, .f32⟩
  | .hbm, ⟨3, _⟩ => ⟨S4096x200x1, .f32⟩
  | .hbm, ⟨4, _⟩ => ⟨S4096x1x200, .f32⟩
  | .hbm, ⟨5, _⟩ => ⟨S4096x200x200, .f32⟩
  | .hbm, ⟨6, _⟩ => ⟨S4096x200x200, .f32⟩
  | .hbm, ⟨7, _⟩ => ⟨S4096x200x200, .f32⟩
  | .hbm, ⟨8, _⟩ => ⟨S4096x200x1, .f32⟩
  | .hbm, ⟨9, _⟩ => ⟨S4096x1x200, .f32⟩
  | .hbm, ⟨10, _⟩ => ⟨S_, .f32⟩
  | .hbm, ⟨11, _⟩ => ⟨S4096x1x200, .f32⟩
  | .hbm, ⟨12, _⟩ => ⟨S4096x1x200, .f32⟩
  | .hbm, ⟨13, _⟩ => ⟨S4096x200x200, .f32⟩
  | .hbm, ⟨14, _⟩ => ⟨S4096x200x200, .f32⟩
  | .hbm, ⟨15, _⟩ => ⟨S4096x200x200, .f32⟩
  | .hbm, ⟨16, _⟩ => ⟨S_, .f32⟩
  | .hbm, ⟨17, _⟩ => ⟨S4096x200x200, .f32⟩
  | .hbm, ⟨18, _⟩ => ⟨S4096x200x200, .f32⟩
  | .hbm, ⟨19, _⟩ => ⟨S_, .f32⟩
  | .hbm, ⟨20, _⟩ => ⟨S4096x200x200, .f32⟩
  | .hbm, ⟨21, _⟩ => ⟨S4096x200x200, .f32⟩
  | .hbm, ⟨22, _⟩ => ⟨S4096x200x200, .f32⟩
  | .hbm, ⟨23, _⟩ => ⟨S_, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .i1⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S4096x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_call0_v0 : Ref sig .tc := ⟨.hbm, 39, rfl⟩
abbrev main_call0_v1 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S4096x200_S4096x200x1_0_1 : S4096x200.BroadcastsInDim S4096x200x1 (![0, 1] : Fin 2 → Fin S4096x200x1.rank)
  bcast_S4096x200_S4096x1x200_0_2 : S4096x200.BroadcastsInDim S4096x1x200 (![0, 2] : Fin 2 → Fin S4096x1x200.rank)
  bcast_S4096x200x1_S4096x200x200_0_1_2 : S4096x200x1.BroadcastsInDim S4096x200x200 (![0, 1, 2] : Fin 3 → Fin S4096x200x200.rank)
  bcast_S4096x1x200_S4096x200x200_0_1_2 : S4096x1x200.BroadcastsInDim S4096x200x200 (![0, 1, 2] : Fin 3 → Fin S4096x200x200.rank)
  bcast_S_S4096x1x200 : S_.BroadcastsInDim S4096x1x200 (![] : Fin 0 → Fin S4096x1x200.rank)
  bcast_S_S4096x200x200 : S_.BroadcastsInDim S4096x200x200 (![] : Fin 0 → Fin S4096x200x200.rank)
  reducesTo_S4096x200_S4096_d1 : S4096x200.ReducesTo [1] S4096
  h_S_ : 0 < S_.numel
  bcast_S_S4096 : S_.BroadcastsInDim S4096 (![] : Fin 0 → Fin S4096.rank)
  reducesTo_S4096x200x200_S4096_d1_2 : S4096x200x200.ReducesTo [1, 2] S4096
  reducesTo_S4096_S_d0 : S4096.ReducesTo [0] S_

variable [Facts₀]

class Facts : Prop extends Facts₀ where

variable [Facts]
-- ==== Proof.Spec.lean ====
/-
  The pairwise margin-ranking hinge loss, as one function of the two argument arrays.

  For one row with scores `x` and labels `l` (read as reals), every ordered pair (p, n) contributes
  `max 0 (1 - (x p - x n)) · (l p · (1 - l n))`; the row's loss is the sum of these over all pairs divided
  by `max c 1`, where `c = (∑ l) · (200 - ∑ l)` counts the (positive, negative) pairs, and is `0` unless `c > 0`.
  The result is the sum of the 4096 row losses divided by 4096.

  The kernel adds the rows up sixty-four at a time, block after block, into one running total; the reference
  adds all 4096 at once. Addition of extended reals is commutative and associative, so the two totals agree
  (`sum_rows_eq_sum_blocks`): no finiteness is needed anywhere.
-/
import Idealize.ShloMosaic.PureOps.Ideal
import Idealize.ShloMosaic.Lib.ValueIdx

noncomputable section

open Idealize.ShloMosaic Idealize.ShloMosaic.ValueIdx

namespace Cert.RankHinge

/-- The contribution of the ordered pair (p, n) of one row: the hinge `max 0 (1 - (x p - x n))` of the
    score difference, weighted by `l p · (1 - l n)`, which is 1 exactly on a (positive, negative) pair of 0/1 labels. -/
def pairTerm (xp xn lp ln : EReal) : EReal :=
  max (Ideal.ofBits .f32 0x00000000#32) (Ideal.ofBits .f32 0x3F800000#32 - (xp - xn))
    * (lp * (Ideal.ofBits .f32 0x3F800000#32 - ln))

/-- The number of (positive, negative) pairs of a row of 0/1 labels: (∑ l) · (200 - ∑ l). -/
def pairCount (l : Fin 200 → EReal) : EReal :=
  (∑ k : Fin 200, l k) * (Ideal.ofBits .f32 0x43480000#32 - ∑ k : Fin 200, l k)

/-- The sum of the pair contributions of one row, over all ordered pairs. -/
def pairSum (x l : Fin 200 → EReal) : EReal :=
  ∑ p : Fin 200, ∑ n : Fin 200, pairTerm (x p) (x n) (l p) (l n)

/-- One row's loss: the mean hinge over its pairs, and 0 for a row without a pair. -/
def rowLoss (x l : Fin 200 → EReal) : EReal :=
  Scalar.select (Ideal.cmp .ogt (pairCount l) (Ideal.ofBits .f32 0x00000000#32))
    (Ideal.div (pairSum x l) (max (pairCount l) (Ideal.ofBits .f32 0x3F800000#32)))
    (Ideal.ofBits .f32 0x00000000#32)

/-- Row `r` of an array of scores with 200 columns. -/
def scoreRow {R : Nat} (X : (⟨2, ![R, 200]⟩ : Shape).Idx → EReal) (r : Fin R) : Fin 200 → EReal :=
  fun k => X (ix2 r k)

/-- Row `r` of an array of integer labels with 200 columns, each label read as a real. -/
def labelRow {R : Nat} (L : (⟨2, ![R, 200]⟩ : Shape).Idx → BitVec 32) (r : Fin R) : Fin 200 → EReal :=
  fun k => (((L (ix2 r k)).toInt : ℝ) : EReal)

/-- The sum of the losses of the 64 rows of one block. -/
def blockLoss (x : (⟨2, ![64, 200]⟩ : Shape).Idx → EReal) (l : (⟨2, ![64, 200]⟩ : Shape).Idx → BitVec 32) : EReal :=
  ∑ b : Fin 64, rowLoss (scoreRow x b) (labelRow l b)

/-- The sum of the losses of all 4096 rows. -/
def lossSum (X : (⟨2, ![4096, 200]⟩ : Shape).Idx → EReal) (L : (⟨2, ![4096, 200]⟩ : Shape).Idx → BitVec 32) : EReal :=
  ∑ r : Fin 4096, rowLoss (scoreRow X r) (labelRow L r)

/-- The result: the mean of the row losses over the batch. -/
def meanLoss (X : (⟨2, ![4096, 200]⟩ : Shape).Idx → EReal) (L : (⟨2, ![4096, 200]⟩ : Shape).Idx → BitVec 32) : EReal :=
  Ideal.div (lossSum X L) (Ideal.ofBits .f32 0x45800000#32)

/-- Row `b` of block `t` is row `64 · t + b` of the array. -/
def rowOfBlock (t b : Fin 64) : Fin 4096 := ⟨64 * t.val + b.val, by have := t.isLt; have := b.isLt; omega⟩

/-- A sum over the 4096 rows is the sum over the 64 blocks of the sums over each block's 64 rows: every row
    `r` is row `r % 64` of block `r / 64`, exactly once. -/
theorem sum_rows_eq_sum_blocks {M : Type*} [AddCommMonoid M] (g : Fin 4096 → M) :
    ∑ r : Fin 4096, g r = ∑ t : Fin 64, ∑ b : Fin 64, g (rowOfBlock t b) := by
  rw [← Finset.sum_product' (Finset.univ : Finset (Fin 64)) (Finset.univ : Finset (Fin 64)) (fun t b => g (rowOfBlock t b))]
  refine (Finset.sum_bij' (fun (tb : Fin 64 × Fin 64) _ => rowOfBlock tb.1 tb.2)
    (fun (r : Fin 4096) _ => ((⟨r.val / 64, by have := r.isLt; omega⟩ : Fin 64), (⟨r.val % 64, by omega⟩ : Fin 64)))
    (fun _ _ => Finset.mem_univ _) (fun _ _ => Finset.mem_univ _) ?_ ?_ (fun _ _ => rfl)).symm
  · rintro ⟨t, b⟩ -
    refine Prod.ext (Fin.ext ?_) (Fin.ext ?_)
    · show (64 * t.val + b.val) / 64 = t.val; have := b.isLt; omega
    · show (64 * t.val + b.val) % 64 = b.val; have := b.isLt; omega
  · rintro r -
    refine Fin.ext ?_
    show 64 * (r.val / 64) + r.val % 64 = r.val; omega

end Cert.RankHinge

end
-- ==== Proof.RefLoss.lean ====
/-
  The reference program computes the mean pairwise margin-ranking hinge loss.

  Read one operation at a time, the reference forms, for every row r and every ordered pair (p, n) of
  columns, the product max 0 (1 - (x p - x n)) · (l p · (1 - l n)) in an array of shape 4096 × 200 × 200,
  sums it over the two pair axes, divides by max c 1 with c = (∑ l) · (200 - ∑ l), keeps the quotient
  where c > 0 and 0 elsewhere, sums the 4096 rows and divides by 4096. Each step below identifies one of
  these arrays, at explicit coordinates, with the matching definition of the specification; the only
  step that is not a pointwise reading is the sum over the two pair axes, which is re-indexed through the
  bijection between the indices with first coordinate r and the pairs (p, n).
-/
import proofs.«174995_j63350767616715_1_alg».proof.Proof.RefRead
import proofs.«174995_j63350767616715_1_alg».proof.Proof.Spec
import Idealize.ShloMosaic.Lib.ValueIdx
import Idealize.ShloMosaic.PureOps.Ideal.Laws

noncomputable section

open Idealize.ShloMosaic Idealize.ShloMosaic.ValueIdx
open Cert.ReferenceIdeal Cert.ReferenceIdeal.ReadP

namespace Cert.RankHinge.Ref

/-! ## The sum over the two pair axes

The indices of a 4096 × 200 × 200 array whose first coordinate is r are the triples (r, p, n), one
for each pair (p, n); so the sum over the indices that drop to row r is the double sum over p and n. -/

/-- Dropping the two pair axes of an index leaves its row coordinate. -/
theorem drop_pairAxes_val (h : S4096x200x200.ReducesTo [1, 2] S4096) (j : S4096x200x200.Idx) :
    (h.drop j (0 : Fin 1)).val = (j (0 : Fin 3)).val :=
  h.drop_apply_val_of_eq j 0 0

/-- The sum over the indices that drop to row r is the double sum over the pairs. -/
theorem sum_filter_drop_pairAxes (h : S4096x200x200.ReducesTo [1, 2] S4096) (y : S4096x200x200.Idx → EReal)
    (r : Fin 4096) :
    ∑ j ∈ Finset.univ.filter (fun j => h.drop j = ix1 r), y j = ∑ p : Fin 200, ∑ n : Fin 200, y (ix3 r p n) := by
  have hrow : ∀ j : S4096x200x200.Idx, h.drop j = ix1 r → j = ix3 r (j 1) (j 2) := by
    intro j hj
    have h0 : (j (0 : Fin 3)).val = r.val := by
      rw [← drop_pairAxes_val h j, hj]
    funext a
    match a with
    | ⟨0, _⟩ => exact Fin.ext h0
    | ⟨1, _⟩ => rfl
    | ⟨2, _⟩ => rfl
  refine Eq.trans ?_ (Fintype.sum_prod_type' (fun (p n : Fin 200) => y (ix3 r p n)))
  refine Finset.sum_nbij' (fun j => ((j 1 : Fin 200), (j 2 : Fin 200))) (fun pn => ix3 r pn.1 pn.2) ?_ ?_ ?_ ?_ ?_
  · intro j _; exact Finset.mem_univ _
  · intro pn _
    refine Finset.mem_filter.2 ⟨Finset.mem_univ _, ?_⟩
    funext b
    match b with
    | ⟨0, _⟩ => exact Fin.ext (drop_pairAxes_val h _)
  · intro j hj; exact (hrow j (Finset.mem_filter.1 hj).2).symm
  · intro pn _; rfl
  · intro j hj; exact congrArg y (hrow j (Finset.mem_filter.1 hj).2)

/-- A sum over the indices of a one-axis array is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ (fun i => ?_)
  exact congrArg f (eq_ix1 i)

variable (X : (⟨S4096x200, .f32⟩ : BufTy).Contents (Elt Ideal)) (L : (⟨S4096x200, .i32⟩ : BufTy).Contents (Elt Ideal))

/-! ## One pair's contribution -/

/-- The label array read as reals, at row r and column k. -/
theorem label_at (r : Fin 4096) (k : Fin 200) :
    val_main_v0 (F := Ideal) L (ix2 r k) = labelRow L r k := rfl

/-- The product array at (r, p, n) is the pair term of the scores and labels of columns p and n of row r. -/
theorem pairTerm_at (r : Fin 4096) (p n : Fin 200) :
    val_main_v17 (F := Ideal) X L (ix3 r p n)
      = pairTerm (scoreRow X r p) (scoreRow X r n) (labelRow L r p) (labelRow L r n) := by
  have e1 : idx_main_v1 (idx_main_v3 (ix3 r p n)) = ix2 r p :=
    funext fun a => by match a with | ⟨0, _⟩ => rfl | ⟨1, _⟩ => rfl
  have e2 : idx_main_v2 (idx_main_v4 (ix3 r p n)) = ix2 r n :=
    funext fun a => by match a with | ⟨0, _⟩ => rfl | ⟨1, _⟩ => rfl
  have e3 : idx_main_v6 (idx_main_v10 (ix3 r p n)) = ix2 r p :=
    funext fun a => by match a with | ⟨0, _⟩ => rfl | ⟨1, _⟩ => rfl
  have e4 : idx_main_v7 (idx_main_v11 (ix3 r p n)) = ix2 r n :=
    funext fun a => by match a with | ⟨0, _⟩ => rfl | ⟨1, _⟩ => rfl
  simp only [val_main_v17_apply, val_main_v16_apply, val_main_v15_apply, val_main_cst_1_apply, val_main_v14_apply,
    val_main_v13_apply, val_main_cst_0_apply, val_main_v5_apply, val_main_v3_apply, val_main_v1_apply,
    val_main_v4_apply, val_main_v2_apply, val_main_v12_apply, val_main_v10_apply, val_main_v6_apply,
    val_main_v11_apply, val_main_v9_apply, val_main_v8_apply, val_main_cst_apply, val_main_v7_apply,
    e1, e2, e3, e4, label_at]
  rfl

/-! ## One row -/

/-- The row sum of the labels. -/
theorem labelSum_at (r : Fin 4096) :
    val_main_v18 (F := Ideal) L (ix1 r) = ∑ k : Fin 200, labelRow L r k := by
  have e : ∀ k : Fin 200, idx_main_v18 (ix1 r) k = ix2 r k := fun k =>
    funext fun a => by match a with | ⟨0, _⟩ => rfl | ⟨1, _⟩ => rfl
  rw [val_main_v18_apply, val_main_cst_2_apply, Ideal.ofBits_def, Ideal.ofBits_zero_f32, zero_add]
  exact Finset.sum_congr rfl fun k _ => by rw [e k, label_at]

/-- The number of (positive, negative) pairs of row r. -/
theorem pairCount_at (r : Fin 4096) :
    val_main_v21 (F := Ideal) L (ix1 r) = pairCount (labelRow L r) := by
  rw [val_main_v21_apply, val_main_v20_apply, val_main_v19_apply, val_main_cst_3_apply, labelSum_at]
  rfl

/-- The sum of the pair terms of row r. -/
theorem pairSum_at (r : Fin 4096) :
    val_main_v22 (F := Ideal) X L (ix1 r) = pairSum (scoreRow X r) (labelRow L r) := by
  unfold val_main_v22
  simp only [Host.reduceAdd, Ideal.hostReduceAdd_def]
  unfold Ideal.hostReduceAdd
  rw [sum_filter_drop_pairAxes, val_main_cst_4_apply, Ideal.ofBits_def, Ideal.ofBits_zero_f32, zero_add]
  unfold pairSum
  exact Finset.sum_congr rfl fun p _ => Finset.sum_congr rfl fun n _ => pairTerm_at X L r p n

/-- The loss of row r. -/
theorem rowLoss_at (r : Fin 4096) :
    val_main_v28 (F := Ideal) X L (ix1 r) = rowLoss (scoreRow X r) (labelRow L r) := by
  rw [val_main_v28_apply, val_main_v24_apply, val_main_v27_apply, val_main_v26_apply, val_main_v23_apply,
    val_main_v25_apply, val_main_call0_v1_apply, val_main_call0_v0_apply, val_main_cst_5_apply, val_main_cst_6_apply,
    val_main_cst_7_apply, pairCount_at, pairSum_at]
  rfl

/-! ## The mean over the rows -/

/-- The sum of the 4096 row losses. -/
theorem lossSum_at (i : S_.Idx) :
    val_main_v29 (F := Ideal) X L i = lossSum X L := by
  rw [val_main_v29_apply, val_main_cst_8_apply, Ideal.ofBits_def, Ideal.ofBits_zero_f32, zero_add, sum_idx1]
  unfold lossSum
  exact Finset.sum_congr rfl fun r _ => rowLoss_at X L r

/-- The reference's result is the mean row loss. -/
theorem ref_meanLoss :
    val_main_v30 (F := Ideal) X L = fun _ => meanLoss X L := by
  funext i
  rw [val_main_v30_apply, lossSum_at, val_main_cst_9_apply]
  rfl

end Cert.RankHinge.Ref

end
-- ==== Proof.Pieces.lean ====
/-
  What one grid point leaves behind, read as values.

  The body keeps a 1×1 running total in a scratch cell. At the first point it stores 0 there, reads it back and
  adds the block's loss; at every later point it adds the block's loss to what the point before left; at the
  last point it also writes the total divided by 4096 into the 1×1 output. Each buffer is written through its
  whole extent, so what a point leaves in it is the last store's payload, and a load that follows a store of the
  same cell reads that store's payload.
-/
import proofs.«174995_j63350767616715_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.RankHinge.Pieces

open Cert.KernelIdeal Cert.KernelIdeal.Gen

variable {F : FTy → Type} [FloatOps F]

/-- The zero offsets of a rank-2 buffer. -/
theorem hz : (![0, 0] : Fin 2 → Nat) = fun _ => 0 := funext fun a => by fin_cases a <;> rfl

/-- First point: the total is reset to the zero payload, read back, and the block's loss added. -/
theorem total_first (c : Dev nD) (i : grid0.Coords) (a1 : Memref sig .tc .vmem S64x200 .f32) (h1 : a1.IsWhole)
    (a2 : Memref sig .tc .vmem S64x200 .i32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S64x200 .f32) (x1 : Vec F S64x200 .i32) :
    sout0_A_0 c i a1 h1 a2 h2 a3 h3 a4 h4 hc0 hc1 x0 x1 = k0_pay1 (k0_pay4 x0 x1) k0_pay3 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S64x200) hz]

/-- A middle point: the block's loss is added to the total `xs0` the point before left. -/
theorem total_middle (c : Dev nD) (i : grid0.Coords) (a1 : Memref sig .tc .vmem S64x200 .f32) (h1 : a1.IsWhole)
    (a2 : Memref sig .tc .vmem S64x200 .i32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S64x200 .f32) (x1 : Vec F S64x200 .i32) (xs0 : Vec F S1x1 .f32) :
    sout0_B_0 c i a1 h1 a2 h2 a3 h3 a4 h4 hc0 hc1 x0 x1 xs0 = k0_pay1 (k0_pay4 x0 x1) xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero (S := S1x1) hz]
  simp only [View.readAt_eq_ld, h1.read_unread, h2.read_unread, h4.read_unread, View.ld_unit_zero (S := S64x200) hz,
    View.ld_unit_zero (S := S1x1) hz]

/-- The last point updates the total in the same way, -/
theorem total_last (c : Dev nD) (i : grid0.Coords) (a1 : Memref sig .tc .vmem S64x200 .f32) (h1 : a1.IsWhole)
    (a2 : Memref sig .tc .vmem S64x200 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S64x200 .f32) (x1 : Vec F S64x200 .i32) (xs0 : Vec F S1x1 .f32) :
    sout0_C_0 c i a1 h1 a2 h2 a3 h3 a4 h4 hc0 hc1 x0 x1 xs0 = k0_pay1 (k0_pay4 x0 x1) xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero (S := S1x1) hz]
  simp only [View.readAt_eq_ld, h1.read_unread, h2.read_unread, h4.read_unread, View.ld_unit_zero (S := S64x200) hz,
    View.ld_unit_zero (S := S1x1) hz]

/-- and leaves in the output the updated total, read back, divided by the batch size. -/
theorem output_last (c : Dev nD) (i : grid0.Coords) (a1 : Memref sig .tc .vmem S64x200 .f32) (h1 : a1.IsWhole)
    (a2 : Memref sig .tc .vmem S64x200 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S64x200 .f32) (x1 : Vec F S64x200 .i32) (xs0 : Vec F S1x1 .f32) :
    out0_C_2 c i a1 h1 a2 h2 a3 h3 a4 h4 hc0 hc1 x0 x1 xs0 = k0_pay2 (k0_pay1 (k0_pay4 x0 x1) xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero (S := S1x1) hz, View.readCov_unit_zero (S := S1x1) _ hz]
  simp only [View.readAt_eq_ld, h1.read_unread, h2.read_unread, h4.read_unread, View.ld_unit_zero (S := S64x200) hz,
    View.ld_unit_zero (S := S1x1) hz]

end Cert.RankHinge.Pieces

end
-- ==== Proof.Chain.lean ====
/-
  The running total, point by point.

  After point `n` the scratch cell holds the losses of blocks 0 … n added up in point order, starting from the
  zero the first point stores: by induction on the point, never by listing the grid. The 1×1 output is written
  once, at the last point, with that total divided by the batch size; its one block is the whole array, so the
  array ends holding exactly that, and the reshape to a scalar that follows keeps the value.
-/
import proofs.«174995_j63350767616715_1_alg».proof.Proof.Pieces
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.RankHinge.Chain

open Cert.KernelIdeal Cert.KernelIdeal.Gen

variable {F : FTy → Type} [FloatOps F]
variable (m : (ℓ : Loc nD τ sig) → Buf (Elt F) ℓ) (ρ : Dev nD → PrngReg)

/-- The 64 × 200 block of scores the window hands point `t`, -/
abbrev scoreBlock (c : Dev nD) (t : Fin cfg0.N) : Vec F S64x200 .f32 := iblk m c 0 t
/-- and its block of labels. -/
abbrev labelBlock (c : Dev nD) (t : Fin cfg0.N) : Vec F S64x200 .i32 := iblk m c 1 t

/-- The total after point `n`: the zero plus block 0's loss, then each later block's loss added in turn. -/
def totalAfter (c : Dev nD) : (n : ℕ) → n < cfg0.N → Vec F S1x1 .f32
  | 0, h => k0_pay1 (k0_pay4 (scoreBlock m c ⟨0, h⟩) (labelBlock m c ⟨0, h⟩)) k0_pay3
  | n + 1, h => k0_pay1 (k0_pay4 (scoreBlock m c ⟨n + 1, h⟩) (labelBlock m c ⟨n + 1, h⟩)) (totalAfter c n (Nat.lt_of_succ_lt h))

/-- What the scratch cell holds after point `n` is that total. -/
theorem scratch_eq (c : Dev nD) : ∀ (n : ℕ) (h : n < cfg0.N), (outsAt0 m c n h).2 = totalAfter m c n h
  | 0, h => by
    rw [outsAt0_A m c ⟨0, h⟩ (Nat.zero_mod _) (by dsimp only; omega)]
    dsimp only
    exact Pieces.total_first ..
  | n + 1, h => by
    have hN : cfg0.N = 64 := N_0
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      rw [Pieces.total_last]
      show k0_pay1 _ (outsAt0 m c n _).2 = k0_pay1 _ (totalAfter m c n _)
      rw [scratch_eq c n]
    · rw [outsAt0_B m c ⟨n + 1, h⟩ h0 h1]
      dsimp only
      rw [Pieces.total_middle]
      show k0_pay1 _ (outsAt0 m c n _).2 = k0_pay1 _ (totalAfter m c n _)
      rw [scratch_eq c n]

/-- At the last point the output's buffer holds the total after that point, divided by the batch size. -/
theorem output_eq (c : Dev nD) (t : Fin cfg0.N) (h63 : t.val % 64 = 63) :
    (outsAt0 m c t.val t.isLt).1 = k0_pay2 (totalAfter m c t.val t.isLt) := by
  obtain ⟨n, hn⟩ := t
  cases n with
  | zero => exact absurd h63 (by dsimp only; omega)
  | succ n =>
    have hN : cfg0.N = 64 := N_0
    have h0 : ¬(⟨n + 1, hn⟩ : Fin cfg0.N).val % 64 = 0 := by dsimp only at h63 ⊢; omega
    rw [outsAt0_C m c ⟨n + 1, hn⟩ h0 h63]
    dsimp only
    rw [Pieces.output_last]
    show k0_pay2 (k0_pay1 _ (outsAt0 m c n _).2) = k0_pay2 (k0_pay1 _ (totalAfter m c n _))
    rw [scratch_eq m c n]

/-- The last grid point. -/
abbrev lastPt : Fin cfg0.N := ⟨63, by rw [show cfg0.N = 64 from N_0]; decide⟩

/-- What the 1×1 result array holds after the run: the total after the last point, divided by the batch size. -/
abbrev resultArr (c : Dev nD) : Buf (Elt F) ((c : Thread nD τ).loc main_v0) :=
  k0_pay2 (totalAfter m c lastPt.val lastPt.isLt)

/-- The output's block index is (0, 0) at every point: its one block is the whole 1×1 array. -/
theorem out_index_zero : ∀ (t : Fin cfg0.N) (a : Fin 2), win0_2.index t a = 0 :=
  (by decide +kernel : ∀ (t : Fin grid0.N) (a : Fin 2), win0_2.index t a = 0)

/-- The one write-back, at the last point, writes that contents. -/
theorem flushed_eq (c : Dev nD) (t : Fin cfg0.N) (hf : (cfg0.win 2).flush t = true) :
    (dats m 0 c).flushed 2 t = ((cfg0.win 2).blk t).view.read (Elt F) (resultArr m c) := by
  have hN : cfg0.N = 64 := N_0
  have h63 : t.val % 64 = 63 := (flush0_2 t).mp hf
  have h3 : t = lastPt := Fin.ext (by have := t.isLt; show t.val = 63; omega)
  subst h3
  show (cfg0.win 2).cut (grid0.coords lastPt) ((dats m 0 c).after 2 lastPt) = _
  rw [after0_2, output_eq m c lastPt h63]
  have hz' : (fun a => win0_2.index lastPt a * main_v0.ty.shape.size a) = fun _ => 0 :=
    funext fun a => by rw [out_index_zero lastPt a, Nat.zero_mul]
  exact (Memref.read_access_unit_zero (Elt F) main_v0 hz' (fun a => by rw [congrFun hz' a]; simp) (resultArr m c)).symm

/-- So the result array ends holding it: the last point's block covers the array. -/
theorem final_out (c : Dev nD) : (dats m 0 c).arrAt 2 cfg0.N = resultArr m c :=
  (dats m 0 c).arrAt_eq_of_cover 2 (resultArr m c) (flushed_eq m c) fun i =>
    ⟨lastPt, (flush0_2 lastPt).mpr rfl, by
      show i ∈ ((View.whole main_v0).slice (win0_2.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_2.index lastPt 0 * win0_2.size 0 ≤ (i 0 : Nat) ∧ (i 0 : Nat) < win0_2.index lastPt 0 * win0_2.size 0 + win0_2.xsize (grid0.coords lastPt) 0
                  rw [out_index_zero lastPt 0, show win0_2.xsize (grid0.coords lastPt) 0 = 1 from by decide +kernel]; omega
      | ⟨1, _⟩ => show win0_2.index lastPt 1 * win0_2.size 1 ≤ (i 1 : Nat) ∧ (i 1 : Nat) < win0_2.index lastPt 1 * win0_2.size 1 + win0_2.xsize (grid0.coords lastPt) 1
                  rw [out_index_zero lastPt 1, show win0_2.xsize (grid0.coords lastPt) 1 = 1 from by decide +kernel]; omega⟩

/-- The scalar result is no array of the pipeline. -/
theorem result_mem_rest : main_v1 ∈ Pipeline.restRefs sig (cfgs 0).spec :=
  Pipeline.mem_restRefs_of main_v1 rfl (fun w => by fin_cases w <;> decide)

/-- After the region the program reshapes the 1×1 array to a scalar. -/
theorem tail_eq (c : Dev nD) :
    Pipeline.afterTail₀ cfgs (dats m) 0 (V0 m) [hostOps1] c main_v1 = shapeCast S_ (resultArr m c) shapeCasts_S1x1_S_ := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = resultArr m c :=
    (Pipeline.withArrays_arr spec0 launch0.win.arr_inj c _ _ 2).trans (final_out m c)
  rw [e]
  rfl

/-- The run, read: the scalar result at the reshaped total over the batch size, the two arguments unchanged. -/
theorem run : θ_run defs (onTc (τ := τ) (main (F := F))) ⟨m, fun _ => 0, ρ⟩ fun r => ∀ c : Dev nD,
      r.2.mem ((c : Thread nD τ).loc main_v1) = shapeCast S_ (resultArr m c) shapeCasts_S1x1_S_
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v1 result_mem_rest).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.RankHinge.Chain

end
-- ==== Proof.BlockPayload.lean ====
/-
  The arithmetic of one grid point, read at the extended reals.

  From its 64 x 200 block of scores and labels a grid point computes, for every row, the sum over all
  ordered pairs (p, n) of the hinge of the score difference weighted by the labels, divides it by the
  number of (positive, negative) pairs where there is one, and adds the 64 quotients up. This file shows
  that the value it hands on is the block loss of the specification, and reads the three small payloads
  of the same program (the running total's update, the final division, the initial zero) at an index.
-/
import proofs.«174995_j63350767616715_1_alg».proof.Proof.Gen.KernelIdeal.Skeleton
import proofs.«174995_j63350767616715_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.RankHinge.Kernel

open Cert.KernelIdeal Cert.KernelIdeal.Gen

/-! ## The three small payloads -/

/-- The running total's update: the stored total plus the block's loss (the cast to the same shape changes nothing). -/
theorem pay1_apply (v40 : FVec Ideal Cert.KernelIdeal.S1x1 .f32) (v41 : Vec Ideal Cert.KernelIdeal.S1x1 .f32)
    (i : Cert.KernelIdeal.S1x1.Idx) : Cert.KernelIdeal.Gen.k0_pay1 (F := Ideal) v40 v41 i = v41 i + v40 i := by
  unfold Cert.KernelIdeal.Gen.k0_pay1
  rw [shapeCast_self]
  rfl

/-- The final division of the total by the word of 4096. -/
theorem pay2_apply (v49 : Vec Ideal Cert.KernelIdeal.S1x1 .f32) (i : Cert.KernelIdeal.S1x1.Idx) :
    Cert.KernelIdeal.Gen.k0_pay2 (F := Ideal) v49 i = Ideal.div (v49 i) (Ideal.ofBits .f32 0x45800000#32) := rfl

/-- The initial total: the zero word everywhere, which is the extended real 0. -/
theorem pay3_apply (i : Cert.KernelIdeal.S1x1.Idx) : Cert.KernelIdeal.Gen.k0_pay3 (F := Ideal) i = 0 := by
  unfold Cert.KernelIdeal.Gen.k0_pay3
  rw [shapeCast_self]
  exact Ideal.ofBits_zero_f32

/-! ## The layout operations of the pair grid, read at coordinates -/

section Layout
variable {α : Type}

/-- A [64, 200] array viewed as [64, 200, 1] reads, at (b, p, u), the array at (b, p). -/
theorem cast_col_apply (v : S64x200.Idx → α) (h : S64x200.ShapeCasts S64x200x1) (b : Fin 64) (p : Fin 200) (u : Fin 1) :
    shapeCast S64x200x1 v h (ix3 b p u) = v (ix2 b p) :=
  shapeCast_apply v h _ _ (by
    have hu : u.val = 0 := by omega
    rw [Shape.rowMajor_val_two, Shape.rowMajor_val_three]
    show b.val * 200 + p.val = (b.val * 200 + p.val) * 1 + u.val
    omega)

/-- A [64, 200] array viewed as [64, 1, 200] reads, at (b, u, n), the array at (b, n). -/
theorem cast_row_apply (v : S64x200.Idx → α) (h : S64x200.ShapeCasts S64x1x200) (b : Fin 64) (u : Fin 1) (n : Fin 200) :
    shapeCast S64x1x200 v h (ix3 b u n) = v (ix2 b n) :=
  shapeCast_apply v h _ _ (by
    have hu : u.val = 0 := by omega
    rw [Shape.rowMajor_val_two, Shape.rowMajor_val_three]
    show b.val * 200 + n.val = (b.val * 1 + u.val) * 200 + n.val
    omega)

/-- A [64, 200, 1] array spread over [64, 200, 200] reads, at (b, p, n), its one element of (b, p). -/
theorem bcast_col_apply (w : S64x200x1.Idx → α) (h : S64x200x1.Broadcasts S64x200x200) (b : Fin 64) (p n : Fin 200) :
    broadcastTo S64x200x200 w h (ix3 b p n) = w (ix3 b p (0 : Fin 1)) := by
  refine broadcastTo_apply w h (ix3 b p n) (ix3 b p (0 : Fin 1)) fun ax => ?_
  match ax with
  | ⟨0, _⟩ => rfl
  | ⟨1, _⟩ => rfl
  | ⟨2, _⟩ => rfl

/-- A [64, 1, 200] array spread over [64, 200, 200] reads, at (b, p, n), its one element of (b, n). -/
theorem bcast_row_apply (w : S64x1x200.Idx → α) (h : S64x1x200.Broadcasts S64x200x200) (b : Fin 64) (p n : Fin 200) :
    broadcastTo S64x200x200 w h (ix3 b p n) = w (ix3 b (0 : Fin 1) n) := by
  refine broadcastTo_apply w h (ix3 b p n) (ix3 b (0 : Fin 1) n) fun ax => ?_
  match ax with
  | ⟨0, _⟩ => rfl
  | ⟨1, _⟩ => rfl
  | ⟨2, _⟩ => rfl

end Layout

/-! ## The three sums, as sums over one coordinate -/

/-- The lane sum of a [64, 200, 200] array over its last axis is, at (b, p), the sum over n of the array at (b, p, n). -/
theorem sum_lane_apply (w : FVec Ideal S64x200x200 .f32) (h : S64x200x200.Reduces [2] S64x200)
    (hφ : FKind.Formats .f32) (hacc : (0x00000000#32 : BitVec 32) = 0x00000000#32) (b : Fin 64) (p : Fin 200) :
    multiReduction .add [2] S64x200 w 0x00000000#32 h hφ hacc (ix2 b p) = ∑ n : Fin 200, w (ix3 b p n) := by
  refine (Ideal.multiReduction_add_single w _ h hφ hacc (ix2 b p)).trans ?_
  refine Finset.sum_congr rfl fun n _ => congrArg w ?_
  funext c
  match c with
  | ⟨0, _⟩ => rfl
  | ⟨1, _⟩ => rfl
  | ⟨2, _⟩ => rfl

/-- The sum of a [64, 200] array over its second axis is, at b, the sum over p of the array at (b, p). -/
theorem sum_row_apply (w : FVec Ideal S64x200 .f32) (h : S64x200.Reduces [1] S64)
    (hφ : FKind.Formats .f32) (hacc : (0x00000000#32 : BitVec 32) = 0x00000000#32) (b : Fin 64) :
    multiReduction .add [1] S64 w 0x00000000#32 h hφ hacc (ix1 b) = ∑ p : Fin 200, w (ix2 b p) := by
  refine (Ideal.multiReduction_add_single w _ h hφ hacc (ix1 b)).trans ?_
  refine Finset.sum_congr rfl fun p _ => congrArg w ?_
  funext c
  match c with
  | ⟨0, _⟩ => rfl
  | ⟨1, _⟩ => rfl

/-- The sum of a [1, 64] array over its second axis is, at its one index, the sum over b of the array at (0, b). -/
theorem sum_blk_apply (w : FVec Ideal S1x64 .f32) (h : S1x64.Reduces [1] S1)
    (hφ : FKind.Formats .f32) (hacc : (0x00000000#32 : BitVec 32) = 0x00000000#32) (u : Fin 1) :
    multiReduction .add [1] S1 w 0x00000000#32 h hφ hacc (ix1 u) = ∑ b : Fin 64, w (ix2 u b) := by
  refine (Ideal.multiReduction_add_single w _ h hφ hacc (ix1 u)).trans ?_
  refine Finset.sum_congr rfl fun b _ => congrArg w ?_
  funext c
  match c with
  | ⟨0, _⟩ => rfl
  | ⟨1, _⟩ => rfl

/-- The last steps: the 64 row values viewed as [1, 64], summed over the second axis, viewed as [1, 1], its one element
    taken and spread over [1, 1] again, read anywhere, is the sum of the 64 values. -/
theorem tail_apply (v : FVec Ideal S64 .f32) (h1 : S64.ShapeCasts S1x64) (h2 : S1x64.Reduces [1] S1)
    (hφ : FKind.Formats .f32) (hacc : (0x00000000#32 : BitVec 32) = 0x00000000#32)
    (h3 : S1.ShapeCasts S1x1) (hpos : ∀ a, (![0, 0] : Fin 2 → Nat) a < S1x1.size a) (i : S1x1.Idx) :
    broadcast S1x1 (extractAt ![0, 0]
        (shapeCast S1x1 (multiReduction .add [1] S1 (shapeCast S1x64 v h1) 0x00000000#32 h2 hφ hacc) h3) hpos) i
      = ∑ b : Fin 64, v (ix1 b) := by
  show shapeCast S1x1 (multiReduction .add [1] S1 (shapeCast S1x64 v h1) 0x00000000#32 h2 hφ hacc) h3
      (fun a => ⟨(![0, 0] : Fin 2 → Nat) a, hpos a⟩) = _
  refine (shapeCast_apply _ h3 _ (ix1 (0 : Fin 1)) ?_).trans ?_
  · rw [Shape.rowMajor_val_one, Shape.rowMajor_val_two]
    rfl
  · refine (sum_blk_apply _ h2 hφ hacc (0 : Fin 1)).trans ?_
    exact Finset.sum_congr rfl fun b _ => shapeCast_a_1a_apply v h1 (0 : Fin 1) b

/-! ## One row -/

/-- The pair grid of a block: at (b, p, n) the hinge of the score difference of columns p and n of row b, times the
    label of p, times one minus the label of n. -/
abbrev pairGrid (x : Vec Ideal S64x200 .f32) (l : Vec Ideal S64x200 .i32)
    (hc : S64x200.ShapeCasts S64x200x1) (hr : S64x200.ShapeCasts S64x1x200)
    (hbc : S64x200x1.Broadcasts S64x200x200) (hbr : S64x1x200.Broadcasts S64x200x200) : FVec Ideal S64x200x200 .f32 :=
  mulf
    (maximumf (broadcast S64x200x200 (Scalar.ofBits .f32 0x00000000#32))
      (subf (broadcast S64x200x200 (Scalar.ofBits .f32 0x3F800000#32))
        (subf (broadcastTo S64x200x200 (shapeCast S64x200x1 x hc) hbc)
          (broadcastTo S64x200x200 (shapeCast S64x1x200 x hr) hbr))))
    (mulf (broadcastTo S64x200x200 (shapeCast S64x200x1 (sitofp .f32 l) hc) hbc)
      (broadcastTo S64x200x200
        (subf (broadcast S64x1x200 (Scalar.ofBits .f32 0x3F800000#32)) (shapeCast S64x1x200 (sitofp .f32 l) hr)) hbr))

/-- The pair grid at (b, p, n) is the specification's pair term of row b at (p, n). -/
theorem pairGrid_apply (x : Vec Ideal S64x200 .f32) (l : Vec Ideal S64x200 .i32)
    (hc : S64x200.ShapeCasts S64x200x1) (hr : S64x200.ShapeCasts S64x1x200)
    (hbc : S64x200x1.Broadcasts S64x200x200) (hbr : S64x1x200.Broadcasts S64x200x200) (b : Fin 64) (p n : Fin 200) :
    pairGrid x l hc hr hbc hbr (ix3 b p n)
      = pairTerm (scoreRow x b p) (scoreRow x b n) (labelRow l b p) (labelRow l b n) := by
  simp only [pairGrid, mulf_apply, maximumf_apply, subf_apply, broadcast_apply, bcast_col_apply, bcast_row_apply,
    cast_col_apply, cast_row_apply]
  rfl

/-- The two sums of the pair grid over n and then over p are, at row b, the specification's pair sum of the row. -/
theorem pairSum_apply (x : Vec Ideal S64x200 .f32) (l : Vec Ideal S64x200 .i32)
    (hc : S64x200.ShapeCasts S64x200x1) (hr : S64x200.ShapeCasts S64x1x200)
    (hbc : S64x200x1.Broadcasts S64x200x200) (hbr : S64x1x200.Broadcasts S64x200x200)
    (h2 : S64x200x200.Reduces [2] S64x200) (h1 : S64x200.Reduces [1] S64)
    (hφ : FKind.Formats .f32) (hacc : (0x00000000#32 : BitVec 32) = 0x00000000#32) (b : Fin 64) :
    multiReduction .add [1] S64
        (multiReduction .add [2] S64x200 (pairGrid x l hc hr hbc hbr) 0x00000000#32 h2 hφ hacc) 0x00000000#32 h1 hφ hacc (ix1 b)
      = pairSum (scoreRow x b) (labelRow l b) := by
  refine (sum_row_apply _ h1 hφ hacc b).trans ?_
  unfold pairSum
  refine Finset.sum_congr rfl fun p _ => ?_
  refine (sum_lane_apply _ h2 hφ hacc b p).trans ?_
  exact Finset.sum_congr rfl fun n _ => pairGrid_apply x l hc hr hbc hbr b p n

/-- The sum of the labels of row b, each read as a real. -/
theorem labelSum_apply (l : Vec Ideal S64x200 .i32) (h1 : S64x200.Reduces [1] S64)
    (hφ : FKind.Formats .f32) (hacc : (0x00000000#32 : BitVec 32) = 0x00000000#32) (b : Fin 64) :
    multiReduction .add [1] S64 (sitofp .f32 l : FVec Ideal S64x200 .f32) 0x00000000#32 h1 hφ hacc (ix1 b)
      = ∑ k : Fin 200, labelRow l b k :=
  sum_row_apply _ h1 hφ hacc b

/-- A row's value from its label sum c and its pair sum s: s divided by max (c (200 - c)) 1 where c (200 - c) is
    positive, else zero, which is the specification's row loss. -/
theorem row_assemble (X L : Fin 200 → EReal) (c s : EReal) (hc : c = ∑ k : Fin 200, L k) (hs : s = pairSum X L) :
    Scalar.select
        (FloatOps.cmpf (F := Ideal) .ogt (c * (FloatOps.ofBits (F := Ideal) .f32 0x43480000#32 - c))
          (FloatOps.ofBits (F := Ideal) .f32 0x00000000#32))
        (Ideal.div s (max (c * (FloatOps.ofBits (F := Ideal) .f32 0x43480000#32 - c)) (FloatOps.ofBits (F := Ideal) .f32 0x3F800000#32)))
        (FloatOps.ofBits (F := Ideal) .f32 0x00000000#32)
      = rowLoss X L := by
  subst hc hs
  rfl

/-! ## The block -/

/-- What one grid point computes from its block of scores and labels is the block's loss. -/
theorem pay4_eq_blockLoss (x : Vec Ideal Cert.KernelIdeal.S64x200 .f32) (l : Vec Ideal Cert.KernelIdeal.S64x200 .i32)
    (i : Cert.KernelIdeal.S1x1.Idx) :
    Cert.KernelIdeal.Gen.k0_pay4 (F := Ideal) x l i = Cert.RankHinge.blockLoss x l := by
  unfold Cert.KernelIdeal.Gen.k0_pay4
  refine (tail_apply _ _ _ _ _ _ _ i).trans ?_
  unfold Cert.RankHinge.blockLoss
  refine Finset.sum_congr rfl fun b _ => ?_
  simp only [select_apply, cmpf_apply, divf_apply, maximumf_apply, mulf_apply, subf_apply, broadcast_apply]
  exact row_assemble _ _ _ _ (labelSum_apply l _ _ _ b) (pairSum_apply x l _ _ _ _ _ _ _ _ b)

end Cert.RankHinge.Kernel

end
-- ==== Proof.Total.lean ====
/-
  The kernel's result is the mean row loss.

  Each payload of the running total, read at the ideal values, adds one block's loss, so the total after the
  last point is the sum over the 64 blocks of their losses, and the output is that sum divided by 4096. Row `b`
  of the block handed to point `t` is row `64 · t + b` of the argument array, for the scores and for the
  labels alike, so the sum over blocks of the sums over their rows is the sum over all 4096 rows: the
  specification's mean loss.
-/
import proofs.«174995_j63350767616715_1_alg».proof.Proof.Chain
import proofs.«174995_j63350767616715_1_alg».proof.Proof.BlockPayload
import proofs.«174995_j63350767616715_1_alg».proof.Proof.Spec
import Idealize.ShloMosaic.Lib.ValueIdx
import Idealize.ShloMosaic.Lib.Pipeline.Value

noncomputable section

open Idealize.ShloMosaic Idealize.ShloMosaic.TcCoe Idealize.ShloMosaic.ValueIdx Idealize.SL.Sem

namespace Cert.RankHinge.Total

open Cert.KernelIdeal Cert.KernelIdeal.Gen Cert.RankHinge Cert.RankHinge.Chain

variable (m : (ℓ : Loc nD τ sig) → Buf (Elt Ideal) ℓ) (ρ : Dev nD → PrngReg)

/-- The two argument arrays, as the specification reads them. -/
abbrev scores (c : Dev nD) : (⟨2, ![4096, 200]⟩ : Shape).Idx → EReal := m ((c : Thread nD τ).loc main_arg0)
abbrev labels (c : Dev nD) : (⟨2, ![4096, 200]⟩ : Shape).Idx → BitVec 32 := m ((c : Thread nD τ).loc main_arg1)

/-- The loss of the block handed to point `n`. -/
def blockAt (c : Dev nD) (n : ℕ) (h : n < cfg0.N) : EReal :=
  blockLoss (scoreBlock m c ⟨n, h⟩) (labelBlock m c ⟨n, h⟩)

/-- The total after point `n` is the sum of the losses of blocks 0 … n. -/
theorem totalAfter_apply (c : Dev nD) : ∀ (n : ℕ) (h : n < cfg0.N) (i : S1x1.Idx),
    totalAfter m c n h i = ∑ s : Fin (n + 1), blockAt m c s.val (lt_of_le_of_lt (Nat.le_of_lt_succ s.isLt) h)
  | 0, h, i => by
    show k0_pay1 (F := Ideal) _ _ i = _
    rw [Kernel.pay1_apply, Kernel.pay3_apply, Kernel.pay4_eq_blockLoss, zero_add, Fin.sum_univ_one]
    rfl
  | n + 1, h, i => by
    show k0_pay1 (F := Ideal) _ _ i = _
    rw [Kernel.pay1_apply, Kernel.pay4_eq_blockLoss, Fin.sum_univ_castSucc, totalAfter_apply c n _ i]
    rfl

/-- The block index of the two input windows at point `t` is (t, 0). -/
theorem in_index : ∀ t : Fin cfg0.N, win0_0.index t 0 = t.val ∧ win0_0.index t 1 = 0
    ∧ win0_1.index t 0 = t.val ∧ win0_1.index t 1 = 0 :=
  (by decide +kernel : ∀ t : Fin grid0.N, win0_0.index t 0 = t.val ∧ win0_0.index t 1 = 0
    ∧ win0_1.index t 0 = t.val ∧ win0_1.index t 1 = 0)

/-- Point `t` as a block number. -/
abbrev blockNo (t : Fin cfg0.N) : Fin 64 := ⟨t.val, lt_of_lt_of_eq t.isLt (show cfg0.N = 64 from N_0)⟩

/-- Entry (b, k) of the block of scores at point `t` is entry (64 t + b, k) of the array. -/
theorem scoreBlock_apply (c : Dev nD) (t : Fin cfg0.N) (b : Fin 64) (k : Fin 200) :
    scoreBlock m c t (ix2 b k) = scores m c (ix2 (rowOfBlock (blockNo t) b) k) := by
  show iblk m c 0 t (ix2 b k) = _
  unfold iblk
  rw [View.read_apply]
  show V m c main_arg0 _ = m ((c : Thread nD τ).loc main_arg0) _
  rw [V_main_arg0]
  congr 1
  funext a
  apply Fin.ext
  match a with
  | ⟨0, _⟩ => show win0_0.index t 0 * 64 + 1 * b.val = 64 * t.val + b.val; rw [(in_index t).1]; omega
  | ⟨1, _⟩ => show win0_0.index t 1 * 200 + 1 * k.val = k.val; rw [(in_index t).2.1]; omega

/-- The same for the labels. -/
theorem labelBlock_apply (c : Dev nD) (t : Fin cfg0.N) (b : Fin 64) (k : Fin 200) :
    labelBlock m c t (ix2 b k) = labels m c (ix2 (rowOfBlock (blockNo t) b) k) := by
  show iblk m c 1 t (ix2 b k) = _
  unfold iblk
  rw [View.read_apply]
  show V m c main_arg1 _ = m ((c : Thread nD τ).loc main_arg1) _
  rw [V_main_arg1]
  congr 1
  funext a
  apply Fin.ext
  match a with
  | ⟨0, _⟩ => show win0_1.index t 0 * 64 + 1 * b.val = 64 * t.val + b.val; rw [(in_index t).2.2.1]; omega
  | ⟨1, _⟩ => show win0_1.index t 1 * 200 + 1 * k.val = k.val; rw [(in_index t).2.2.2]; omega

/-- So the loss of the block at point `t` is the sum of the losses of rows 64 t … 64 t + 63 of the arrays. -/
theorem blockAt_eq (c : Dev nD) (n : ℕ) (h : n < cfg0.N) :
    blockAt m c n h = ∑ b : Fin 64, rowLoss (scoreRow (scores m c) (rowOfBlock (blockNo ⟨n, h⟩) b))
      (labelRow (labels m c) (rowOfBlock (blockNo ⟨n, h⟩) b)) := by
  unfold blockAt blockLoss
  refine Finset.sum_congr rfl fun b _ => ?_
  congr 1
  · funext k; exact scoreBlock_apply m c ⟨n, h⟩ b k
  · funext k; unfold labelRow; rw [labelBlock_apply m c ⟨n, h⟩ b k]

/-- The losses of the 64 blocks add up to the losses of the 4096 rows. -/
theorem sum_blocks_eq (c : Dev nD) (hlt : ∀ s : Fin 64, s.val < cfg0.N) :
    ∑ s : Fin 64, blockAt m c s.val (hlt s) = lossSum (scores m c) (labels m c) := by
  unfold lossSum
  rw [sum_rows_eq_sum_blocks]
  exact Finset.sum_congr rfl fun t _ => blockAt_eq m c t.val _

/-- The result array holds the mean row loss. -/
theorem resultArr_apply (c : Dev nD) (i : S1x1.Idx) : resultArr m c i = meanLoss (scores m c) (labels m c) := by
  show k0_pay2 (F := Ideal) _ i = _
  rw [Kernel.pay2_apply, totalAfter_apply]
  unfold meanLoss
  exact congrArg (fun z => Ideal.div z (Ideal.ofBits .f32 0x45800000#32))
    (sum_blocks_eq m c fun s => lt_of_le_of_lt (Nat.le_of_lt_succ s.isLt) lastPt.isLt)

/-- And so does the scalar it is reshaped to. -/
theorem result_eq (c : Dev nD) :
    shapeCast S_ (resultArr m c) shapeCasts_S1x1_S_ = fun _ => meanLoss (scores m c) (labels m c) := by
  funext j
  unfold shapeCast
  exact resultArr_apply m c _

/-- The run of the idealized kernel, read: the scalar result at the mean row loss of the argument arrays,
    which end unchanged. -/
theorem run : θ_run defs (onTc (τ := τ) (main (F := Ideal))) ⟨m, fun _ => 0, ρ⟩ fun r => ∀ c : Dev nD,
      r.2.mem ((c : Thread nD τ).loc main_v1) = (fun _ => meanLoss (scores m c) (labels m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_eq m c), (h c).2⟩) (Chain.run m ρ)

end Cert.RankHinge.Total

end
-- ==== Proof.lean ====
/-
  The mean pairwise margin-ranking hinge loss: the kernel against its reference.

  Both programs take a 4096 × 200 array of scores and a 4096 × 200 array of integer labels and return one
  number: for each row, the hinge `max 0 (1 - (x p - x n))` of every ordered pair of columns weighted by
  `l p · (1 - l n)`, summed over all pairs, divided by `max c 1` where `c = (∑ l) · (200 - ∑ l)`, kept only
  where `c > 0`; then the mean of the 4096 row values.

  The kernel walks the rows in 64 blocks of 64, keeps a running total in a scratch cell that the first block
  resets, and writes the total divided by 4096 after the last block; within a block it sums the pair terms over
  one column axis and then the other. The reference sums each row's pair terms over both axes at once and all
  rows at once. Over the extended reals addition is commutative and associative, so the two groupings of the
  same terms agree, with the same literal constants (0, 1, 200, 4096) and the same elementary operations on
  both sides; finiteness of the inputs is not used.

  The frames of the kernel and of its idealization are the generated frame certificates; the reference's
  frame is its run with the result dropped. The ideal pass rewrote nothing, so the idealization claim is
  trivial. The value claim joins the kernel's run, read as the specification's `meanLoss` of the argument
  arrays, with the reference's run read as the same function.
-/
import proofs.«174995_j63350767616715_1_alg».proof.Defs
import proofs.«174995_j63350767616715_1_alg».proof.Proof.Gen.Kernel
import proofs.«174995_j63350767616715_1_alg».proof.Proof.Gen.Kernel.Frame
import proofs.«174995_j63350767616715_1_alg».proof.Proof.Gen.KernelIdeal
import proofs.«174995_j63350767616715_1_alg».proof.Proof.Gen.KernelIdeal.Frame
import proofs.«174995_j63350767616715_1_alg».proof.Proof.Gen.ReferenceIdeal
import proofs.«174995_j63350767616715_1_alg».proof.Proof.Gen.Pre_finite_inputs
import proofs.«174995_j63350767616715_1_alg».proof.Proof.RefRun
import proofs.«174995_j63350767616715_1_alg».proof.Proof.RefLoss
import proofs.«174995_j63350767616715_1_alg».proof.Proof.Total
import Idealize.ShloMosaic.Adequacy
import Idealize.ShloMosaic.Init

noncomputable section

namespace Cert.Proof

open Idealize.ShloMosaic Idealize.SL.Sem

/-- The kernel as printed terminates without a fault and leaves its two arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end with the mean row loss of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun _ => Cert.RankHinge.meanLoss (Cert.RankHinge.Total.scores m c) (Cert.RankHinge.Total.labels m c)),
    Cert.RankHinge.Total.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v30_eq _ _).trans ?_
  rw [Cert.RankHinge.Ref.ref_meanLoss, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
